-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x128 : Shape := ⟨2, ![128, 128]⟩
abbrev S256x4 : Shape := ⟨2, ![256, 4]⟩
abbrev S4 : Shape := ⟨1, ![4]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  main_v18

def fn {F : FTy → Type} [FloatOps F] (main_arg0 : FVec F S8192x128 .f32) (main_arg1 : FVec F S128x128 .f32) (main_arg2 : FVec F S256x4 .f32) (main_arg3 : FVec F S4 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x4 .f32 := Host.absf main_arg2
  let main_cst_2 : FVec F S_ .f32 := constant S_ .f32 0x7F800000#32
  let main_v10 : FVec F S256x4 .f32 := broadcastInDim S256x4 ![] bcast_S_S256x4 main_cst_2
  let main_v11 : IVec S256x4 1 := cmpf .olt main_v9 main_v10
  let main_c_3 : IVec S_ 1 := constantI S_ 1 1#1
  let main_v12 : IVec S_ 1 := (fun x v => Host.reduce IntOp.andi x v reducesTo_S256x4_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_v13 main_v16
-- ==== Kernel.lean ====
abbrev S8192x128 : Shape := ⟨2, ![8192, 128]⟩
abbrev S128x128 : Shape := ⟨2, ![128, 128]⟩
abbrev S256x4 : Shape := ⟨2, ![256, 4]⟩
abbrev S4 : Shape := ⟨1, ![4]⟩
abbrev S128x4 : Shape := ⟨2, ![128, 4]⟩
abbrev S1x4 : Shape := ⟨2, ![1, 4]⟩
abbrev S1x512 : Shape := ⟨2, ![1, 512]⟩
abbrev S4x4 : Shape := ⟨2, ![4, 4]⟩
abbrev S_ : Shape := ⟨0, ![]⟩
abbrev S1x4x1x4 : Shape := ⟨4, ![1, 4, 1, 4]⟩
abbrev S1x4x128x4 : Shape := ⟨4, ![1, 4, 128, 4]⟩
abbrev S4x512 : Shape := ⟨2, ![4, 512]⟩
abbrev S8192x512 : Shape := ⟨2, ![8192, 512]⟩
abbrev S2048x128 : Shape := ⟨2, ![2048, 128]⟩
abbrev S2048x512 : Shape := ⟨2, ![2048, 512]⟩
abbrev S2048x4 : Shape := ⟨2, ![2048, 4]⟩
abbrev S8192x128x4 : Shape := ⟨3, ![8192, 128, 4]⟩

abbrev nBuf : Space → Nat
  | .hbm => 23
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S256x4, .f32⟩
  | .hbm, ⟨3, _⟩ => ⟨S4, .f32⟩
  | .hbm, ⟨4, _⟩ => ⟨S128x4, .f32⟩
  | .hbm, ⟨5, _⟩ => ⟨S128x4, .f32⟩
  | .hbm, ⟨6, _⟩ => ⟨S128x4, .f32⟩
  | .hbm, ⟨7, _⟩ => ⟨S1x4, .f32⟩
  | .hbm, ⟨8, _⟩ => ⟨S128x4, .f32⟩
  | .hbm, ⟨9, _⟩ => ⟨S128x4, .f32⟩
  | .hbm, ⟨10, _⟩ => ⟨S1x512, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S1x4x1x4, .f32⟩
  | .hbm, ⟨19, _⟩ => ⟨S1x4x128x4, .f32⟩
  | .hbm, ⟨20, _⟩ => ⟨S4x512, .f32⟩
  | .hbm, ⟨21, _⟩ => ⟨S8192x512, .f32⟩
  | .hbm, ⟨22, _⟩ => ⟨S8192x128x4, .f32⟩
  | .local _ .vmem, ⟨0, _⟩ => ⟨S2048x128, .f32⟩
  | .local _ .vmem, ⟨1, _⟩ => ⟨S2048x128, .f32⟩
  | .local _ .vmem, ⟨2, _⟩ => ⟨S128x4, .f32⟩
  | .local _ .vmem, ⟨3, _⟩ => ⟨S4x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S256x4_S128x4_0_0 : S256x4.Slices ![0, 0] S128x4
  slices_S256x4_S128x4_128_0 : S256x4.Slices ![128, 0] S128x4
  bcast_S4_S1x4_1 : S4.BroadcastsInDim S1x4 (![1] : Fin 1 → Fin S1x4.rank)
  bcast_S1x4_S128x4_0_1 : S1x4.BroadcastsInDim S128x4 (![0, 1] : Fin 2 → Fin S128x4.rank)
  shapeCasts_S128x4_S1x512 : S128x4.ShapeCasts S1x512
  bcast_S_S4x4 : S_.BroadcastsInDim S4x4 (![] : Fin 0 → Fin S4x4.rank)
  shapeCasts_S4x4_S1x4x1x4 : S4x4.ShapeCasts S1x4x1x4
  bcast_S1x4x1x4_S1x4x128x4_0_1_2_3 : S1x4x1x4.BroadcastsInDim S1x4x128x4 (![0, 1, 2, 3] : Fin 4 → Fin S1x4x128x4.rank)
  shapeCasts_S1x4x128x4_S4x512 : S1x4x128x4.ShapeCasts S4x512
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S8192x512_S8192x128x4 : S8192x512.ShapeCasts S8192x128x4
  dot_S128x128_S128x4_S128x4_0_0_1_1_n_n_wf : DotDims.WF S128x128 S128x4 S128x4 [0] [0] [1] [1] [] []
  dot_S2048x128_S128x4_S2048x4_1_0_0_1_n_n_wf : DotDims.WF S2048x128 S128x4 S2048x4 [1] [0] [0] [1] [] []
  dot_S2048x4_S4x512_S2048x512_1_0_0_1_n_n_wf : DotDims.WF S2048x4 S4x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x512.size a
  hwx0_2 : ∀ i : grid0.Coords, EltTy.bits .f32 = 32 ∨ (Rect.block (s := S4x512) S4x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x512.size a
  hwx0_4 : ∀ i : grid0.Coords, EltTy.bits .f32 = 32 ∨ (Rect.block (s := S8192x512) S2048x512.size (cc0_transform_4 i) (hinb0_4 i)).WholeWords (EltTy.packing .f32)

variable [Facts₀]

def dot_S128x128_S128x4_S128x4_0_0_1_1_n_n : DotDims S128x128 S128x4 S128x4 where
  lhsContracting := [0]
  rhsContracting := [0]
  lhsNonContracting := [1]
  rhsNonContracting := [1]
  lhsBatch := []
  rhsBatch := []
  wf := dot_S128x128_S128x4_S128x4_0_0_1_1_n_n_wf
def dot_S2048x128_S128x4_S2048x4_1_0_0_1_n_n : DotDims S2048x128 S128x4 S2048x4 where
  lhsContracting := [1]
  rhsContracting := [0]
  lhsNonContracting := [0]
  rhsNonContracting := [1]
  lhsBatch := []
  rhsBatch := []
  wf := dot_S2048x128_S128x4_S2048x4_1_0_0_1_n_n_wf
def dot_S2048x4_S4x512_S2048x512_1_0_0_1_n_n : DotDims S2048x4 S4x512 S2048x512 where
  lhsContracting := [1]
  rhsContracting := [0]
  lhsNonContracting := [0]
  rhsNonContracting := [1]
  lhsBatch := []
  rhsBatch := []
  wf := dot_S2048x4_S4x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S128x128 : Shape := ⟨2, ![128, 128]⟩
abbrev S256x4 : Shape := ⟨2, ![256, 4]⟩
abbrev S4 : Shape := ⟨1, ![4]⟩
abbrev S128x4 : Shape := ⟨2, ![128, 4]⟩
abbrev S8192x4 : Shape := ⟨2, ![8192, 4]⟩
abbrev S8192x1x4 : Shape := ⟨3, ![8192, 1, 4]⟩
abbrev S1x128x4 : Shape := ⟨3, ![1, 128, 4]⟩
abbrev S8192x128x4 : Shape := ⟨3, ![8192, 128, 4]⟩
abbrev S1x1x4 : Shape := ⟨3, ![1, 1, 4]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S256x4, .f32⟩
  | .hbm, ⟨3, _⟩ => ⟨S4, .f32⟩
  | .hbm, ⟨4, _⟩ => ⟨S128x4, .f32⟩
  | .hbm, ⟨5, _⟩ => ⟨S8192x4, .f32⟩
  | .hbm, ⟨6, _⟩ => ⟨S128x4, .f32⟩
  | .hbm, ⟨7, _⟩ => ⟨S128x4, .f32⟩
  | .hbm, ⟨8, _⟩ => ⟨S8192x1x4, .f32⟩
  | .hbm, ⟨9, _⟩ => ⟨S1x128x4, .f32⟩
  | .hbm, ⟨10, _⟩ => ⟨S8192x128x4, .f32⟩
  | .hbm, ⟨11, _⟩ => ⟨S8192x128x4, .f32⟩
  | .hbm, ⟨12, _⟩ => ⟨S8192x128x4, .f32⟩
  | .hbm, ⟨13, _⟩ => ⟨S1x1x4, .f32⟩
  | .hbm, ⟨14, _⟩ => ⟨S8192x128x4, .f32⟩
  | .hbm, ⟨15, _⟩ => ⟨S8192x128x4, .f32⟩
  | .hbm, ⟨16, _⟩ => ⟨S_, .f32⟩
  | .hbm, ⟨17, _⟩ => ⟨S8192x128x4, .f32⟩
  | .hbm, ⟨18, _⟩ => ⟨S8192x128x4, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  slices_S256x4_S128x4_0_0 : S256x4.Slices ![0, 0] S128x4
  slices_S256x4_S128x4_128_0 : S256x4.Slices ![128, 0] S128x4
  bcast_S8192x4_S8192x1x4_0_2 : S8192x4.BroadcastsInDim S8192x1x4 (![0, 2] : Fin 2 → Fin S8192x1x4.rank)
  bcast_S128x4_S1x128x4_1_2 : S128x4.BroadcastsInDim S1x128x4 (![1, 2] : Fin 2 → Fin S1x128x4.rank)
  bcast_S8192x1x4_S8192x128x4_0_1_2 : S8192x1x4.BroadcastsInDim S8192x128x4 (![0, 1, 2] : Fin 3 → Fin S8192x128x4.rank)
  bcast_S1x128x4_S8192x128x4_0_1_2 : S1x128x4.BroadcastsInDim S8192x128x4 (![0, 1, 2] : Fin 3 → Fin S8192x128x4.rank)
  bcast_S4_S1x1x4_2 : S4.BroadcastsInDim S1x1x4 (![2] : Fin 1 → Fin S1x1x4.rank)
  bcast_S1x1x4_S8192x128x4_0_1_2 : S1x1x4.BroadcastsInDim S8192x128x4 (![0, 1, 2] : Fin 3 → Fin S8192x128x4.rank)
  bcast_S_S8192x128x4 : S_.BroadcastsInDim S8192x128x4 (![] : Fin 0 → Fin S8192x128x4.rank)
  dot_S8192x128_S128x4_S8192x4_1_0_0_1_n_n_wf : DotDims.WF S8192x128 S128x4 S8192x4 [1] [0] [0] [1] [] []
  dot_S128x128_S128x4_S128x4_0_0_1_1_n_n_wf : DotDims.WF S128x128 S128x4 S128x4 [0] [0] [1] [1] [] []

variable [Facts₀]

def dot_S8192x128_S128x4_S8192x4_1_0_0_1_n_n : DotDims S8192x128 S128x4 S8192x4 where
  lhsContracting := [1]
  rhsContracting := [0]
  lhsNonContracting := [0]
  rhsNonContracting := [1]
  lhsBatch := []
  rhsBatch := []
  wf := dot_S8192x128_S128x4_S8192x4_1_0_0_1_n_n_wf
def dot_S128x128_S128x4_S128x4_0_0_1_1_n_n : DotDims S128x128 S128x4 S128x4 where
  lhsContracting := [0]
  rhsContracting := [0]
  lhsNonContracting := [1]
  rhsNonContracting := [1]
  lhsBatch := []
  rhsBatch := []
  wf := dot_S128x128_S128x4_S128x4_0_0_1_1_n_n_wf

class Facts : Prop extends Facts₀ where

variable [Facts]
-- ==== Proof.Spec.lean ====
/-
  The one function both programs compute, over the extended reals.

  Inputs: node features `z : [8192, 128]`, a feature table `x : [128, 128]` (feature `d`, column `m`), a weight matrix
  `W : [256, 4]` whose upper 128 rows act on `z` and whose lower 128 rows act on `x`, and a bias `b : [4]`. The result at
  `(n, m, h)` is
      max ( Σ_d z[n,d]·W[d,h]  +  Σ_d x[d,m]·W[128+d,h]  +  b[h] , 0 ).
  Also here: the two small laws that join the two programs. The kernel spreads the four numbers `Σ_d z[n,d]·W[d,·]` over
  512 lanes by a product with a 0/1 matrix whose row `k` is one exactly on the lanes `≡ k (mod 4)`; a sum of products
  against such an indicator picks out one term, on every extended real (`0 · a = 0` and `1 · a = a` also at `±∞`). And the
  kernel adds the bias to the `x` part first, the reference last: addition of extended reals is associative.
-/
import Idealize.ShloMosaic.PureOps.Ideal
import Idealize.ShloMosaic.Lib.ValueIdx

noncomputable section

open scoped BigOperators

namespace Cert.GraphAggr

open Idealize.ShloMosaic Idealize.ShloMosaic.ValueIdx

/-- Row `n` of `z` against column `h` of the upper half of `W`. -/
def zW (z : (⟨2, ![8192, 128]⟩ : Shape).Idx → EReal) (W : (⟨2, ![256, 4]⟩ : Shape).Idx → EReal) (n : Fin 8192) (h : Fin 4) : EReal :=
  ∑ d : Fin 128, z (ix2 n d) * W (ix2 (⟨d.val, by have := d.isLt; omega⟩ : Fin 256) h)

/-- Column `m` of `x` against column `h` of the lower half of `W`. -/
def xW (x : (⟨2, ![128, 128]⟩ : Shape).Idx → EReal) (W : (⟨2, ![256, 4]⟩ : Shape).Idx → EReal) (m : Fin 128) (h : Fin 4) : EReal :=
  ∑ d : Fin 128, x (ix2 d m) * W (ix2 (⟨128 + d.val, by have := d.isLt; omega⟩ : Fin 256) h)

/-- The result at coordinates `(n, m, h)`. -/
def outAt (z : (⟨2, ![8192, 128]⟩ : Shape).Idx → EReal) (x : (⟨2, ![128, 128]⟩ : Shape).Idx → EReal)
    (W : (⟨2, ![256, 4]⟩ : Shape).Idx → EReal) (b : (⟨1, ![4]⟩ : Shape).Idx → EReal) (n : Fin 8192) (m : Fin 128) (h : Fin 4) : EReal :=
  max (zW z W n h + xW x W m h + b (ix1 h)) 0

/-- The whole result array. -/
def out (z : (⟨2, ![8192, 128]⟩ : Shape).Idx → EReal) (x : (⟨2, ![128, 128]⟩ : Shape).Idx → EReal)
    (W : (⟨2, ![256, 4]⟩ : Shape).Idx → EReal) (b : (⟨1, ![4]⟩ : Shape).Idx → EReal) : (⟨3, ![8192, 128, 4]⟩ : Shape).Idx → EReal :=
  fun i => outAt z x W b ⟨(i 0).val, (i 0).isLt⟩ ⟨(i 1).val, (i 1).isLt⟩ ⟨(i 2).val, (i 2).isLt⟩

/-- A sum of products against the indicator of one index is that index's term. -/
theorem sum_mul_indicator (a : Fin 4 → EReal) (h : Fin 4) :
    ∑ k : Fin 4, a k * (if k.val = h.val then (1 : EReal) else 0) = a h := by
  rw [Finset.sum_eq_single h]
  · rw [if_pos rfl, mul_one]
  · intro k _ hk
    rw [if_neg (fun e => hk (Fin.ext e)), mul_zero]
  · intro hh
    exact absurd (Finset.mem_univ h) hh

/-- The kernel's grouping of the three summands is the reference's. -/
theorem add_bias_last (u v w : EReal) : u + (v + w) = u + v + w := (add_assoc u v w).symm

end Cert.GraphAggr

end
-- ==== Proof.RefValue.lean ====
/-
  The reference computes the specification.

  Read one operation at a time, the reference's result at `(n, m, h)` is
      max ( (Σ_k z[n,k]·W[k,h] + Σ_k x[k,m]·W[128+k,h]) + b[h] , 0 ):
  two contractions over the 128 features (the second against the lower half of `W`, a slice starting at row 128), two
  broadcasts that place them on the `n` and `m` axes, the bias broadcast along its `h` axis, and a maximum with the zero
  constant. That is the specification's formula verbatim; only the indices the broadcasts and slices compose have to
  be named by their coordinates.
-/
import proofs.«110605_j12541304504449_1_alg».proof.Proof.Gen.ReferenceIdeal.Run
import proofs.«110605_j12541304504449_1_alg».proof.Proof.Gen.ReferenceIdeal.Read
import proofs.«110605_j12541304504449_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The `z` entry the first contraction reads at result index `i` and feature `k`. -/
theorem z_idx (i : S8192x128x4.Idx) (k : Fin 128) :
    lidx_main_v1 (idx_main_v4 (idx_main_v6 i)) k = ix2 (⟨(i 0).val, (i 0).isLt⟩ : Fin 8192) k :=
  funext fun a => Fin.ext (by match a with | ⟨0, _⟩ => rfl | ⟨1, _⟩ => rfl)

/-- The `W` entry the first contraction reads: row `k` of the upper half. -/
theorem wz_idx (i : S8192x128x4.Idx) (k : Fin 128) :
    idx_main_v0 (ridx_main_v1 (idx_main_v4 (idx_main_v6 i)) k)
      = ix2 (⟨k.val, by have := k.isLt; omega⟩ : Fin 256) (⟨(i 2).val, (i 2).isLt⟩ : Fin 4) :=
  funext fun a => Fin.ext (by match a with | ⟨0, _⟩ => rfl | ⟨1, _⟩ => rfl)

/-- The `x` entry the second contraction reads: feature `k`, column `m`. -/
theorem x_idx (i : S8192x128x4.Idx) (k : Fin 128) :
    lidx_main_v3 (idx_main_v5 (idx_main_v7 i)) k = ix2 k (⟨(i 1).val, (i 1).isLt⟩ : Fin 128) :=
  funext fun a => Fin.ext (by match a with | ⟨0, _⟩ => rfl | ⟨1, _⟩ => rfl)

/-- The `W` entry the second contraction reads: row `128 + k`, the lower half. -/
theorem wx_idx (i : S8192x128x4.Idx) (k : Fin 128) :
    idx_main_v2 (ridx_main_v3 (idx_main_v5 (idx_main_v7 i)) k)
      = ix2 (⟨128 + k.val, by have := k.isLt; omega⟩ : Fin 256) (⟨(i 2).val, (i 2).isLt⟩ : Fin 4) :=
  funext fun a => Fin.ext (by match a with | ⟨0, _⟩ => rfl | ⟨1, _⟩ => rfl)

/-- The bias entry read at result index `i`: its `h` coordinate. -/
theorem b_idx (i : S8192x128x4.Idx) :
    idx_main_v9 (idx_main_v10 i) = ix1 (⟨(i 2).val, (i 2).isLt⟩ : Fin 4) :=
  funext fun a => Fin.ext (by match a with | ⟨0, _⟩ => rfl)

/-- The reference's result, as a function of its four arguments, is the specification. -/
theorem result_eq (x0 : (⟨S8192x128, .f32⟩ : BufTy).Contents (Elt Ideal)) (x1 : (⟨S128x128, .f32⟩ : BufTy).Contents (Elt Ideal))
    (x2 : (⟨S256x4, .f32⟩ : BufTy).Contents (Elt Ideal)) (x3 : (⟨S4, .f32⟩ : BufTy).Contents (Elt Ideal)) :
    val_main_v12 (F := Ideal) x0 x1 x2 x3 = Cert.GraphAggr.out x0 x1 x2 x3 := by
  funext i
  rw [val_main_v12_apply, val_main_v11_apply, val_main_v8_apply, val_main_v6_apply, val_main_v4_apply, val_main_v1_apply,
    val_main_v7_apply, val_main_v5_apply, val_main_v3_apply, val_main_v10_apply, val_main_v9_apply,
    val_main_call0_v0_apply, val_main_call0_cst_apply]
  simp only [val_main_v0_apply, val_main_v2_apply, z_idx, wz_idx, x_idx, wx_idx, b_idx]
  show max (_ + _ + _) (Ideal.ofBits .f32 0x00000000#32) = _
  rw [Ideal.ofBits_zero_f32]
  rfl

end Cert.ReferenceIdeal.RefValue

end
-- ==== Proof.KernelBody.lean ====
/-
  What one grid step of the kernel stores, entry by entry, over the extended reals.

  A step loads a block of 2048 rows of `z` and three small operands — the upper half `Wz` of the weights `[128, 4]`, a
  0/1 spreading matrix `E : [4, 512]`, and the row `xwb : [1, 512]` —, forms `zw = z·Wz` (`[2048, 4]`), then
  `zw·E` (`[2048, 512]`), adds `xwb` to every row and clamps at zero. The narrowing of each matrix operand to bf16 is the
  identity on extended reals and both products start from a zero accumulator, so the entry at row `p`, lane `q` is
      max ( Σ_k (Σ_d z[p,d]·Wz[d,k]) · E[k,q]  +  xwb[0,q] , 0 ).
-/
import proofs.«110605_j12541304504449_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen
open Idealize.ShloMosaic Idealize.ShloMosaic.TcCoe Idealize.SL.Sem Idealize.ShloMosaic.ValueIdx

/-! ## The operand indices of the two products, axis by axis -/

theorem lhs_zw_0 (i : S2048x4.Idx) (q : dot_S2048x128_S128x4_S2048x4_1_0_0_1_n_n.contr.Idx) :
    (dot_S2048x128_S128x4_S2048x4_1_0_0_1_n_n.lhsIdx i q 0).val = (i 0).val := by
  unfold DotDims.lhsIdx
  rw [dif_neg (show ¬(0 : Fin S2048x128.rank) ∈ dot_S2048x128_S128x4_S2048x4_1_0_0_1_n_n.lhsBatch by decide), dif_pos (show (0 : Fin S2048x128.rank) ∈ dot_S2048x128_S128x4_S2048x4_1_0_0_1_n_n.lhsNonContracting by decide)]
  rfl
theorem lhs_zw_1 (i : S2048x4.Idx) (q : dot_S2048x128_S128x4_S2048x4_1_0_0_1_n_n.contr.Idx) :
    (dot_S2048x128_S128x4_S2048x4_1_0_0_1_n_n.lhsIdx i q 1).val = (q ⟨0, by decide⟩).val :=
  dot_S2048x128_S128x4_S2048x4_1_0_0_1_n_n.lhsIdx_val_of_single rfl i q
theorem rhs_zw_0 (i : S2048x4.Idx) (q : dot_S2048x128_S128x4_S2048x4_1_0_0_1_n_n.contr.Idx) :
    (dot_S2048x128_S128x4_S2048x4_1_0_0_1_n_n.rhsIdx i q 0).val = (q ⟨0, by decide⟩).val :=
  dot_S2048x128_S128x4_S2048x4_1_0_0_1_n_n.rhsIdx_val_of_single rfl i q
theorem rhs_zw_1 (i : S2048x4.Idx) (q : dot_S2048x128_S128x4_S2048x4_1_0_0_1_n_n.contr.Idx) :
    (dot_S2048x128_S128x4_S2048x4_1_0_0_1_n_n.rhsIdx i q 1).val = (i 1).val := by
  unfold DotDims.rhsIdx
  rw [dif_neg (show ¬(1 : Fin S128x4.rank) ∈ dot_S2048x128_S128x4_S2048x4_1_0_0_1_n_n.rhsBatch by decide), dif_pos (show (1 : Fin S128x4.rank) ∈ dot_S2048x128_S128x4_S2048x4_1_0_0_1_n_n.rhsNonContracting by decide)]
  rfl

theorem lhs_spread_0 (i : S2048x512.Idx) (q : dot_S2048x4_S4x512_S2048x512_1_0_0_1_n_n.contr.Idx) :
    (dot_S2048x4_S4x512_S2048x512_1_0_0_1_n_n.lhsIdx i q 0).val = (i 0).val := by
  unfold DotDims.lhsIdx
  rw [dif_neg (show ¬(0 : Fin S2048x4.rank) ∈ dot_S2048x4_S4x512_S2048x512_1_0_0_1_n_n.lhsBatch by decide), dif_pos (show (0 : Fin S2048x4.rank) ∈ dot_S2048x4_S4x512_S2048x512_1_0_0_1_n_n.lhsNonContracting by decide)]
  rfl
theorem lhs_spread_1 (i : S2048x512.Idx) (q : dot_S2048x4_S4x512_S2048x512_1_0_0_1_n_n.contr.Idx) :
    (dot_S2048x4_S4x512_S2048x512_1_0_0_1_n_n.lhsIdx i q 1).val = (q ⟨0, by decide⟩).val :=
  dot_S2048x4_S4x512_S2048x512_1_0_0_1_n_n.lhsIdx_val_of_single rfl i q
theorem rhs_spread_0 (i : S2048x512.Idx) (q : dot_S2048x4_S4x512_S2048x512_1_0_0_1_n_n.contr.Idx) :
    (dot_S2048x4_S4x512_S2048x512_1_0_0_1_n_n.rhsIdx i q 0).val = (q ⟨0, by decide⟩).val :=
  dot_S2048x4_S4x512_S2048x512_1_0_0_1_n_n.rhsIdx_val_of_single rfl i q
theorem rhs_spread_1 (i : S2048x512.Idx) (q : dot_S2048x4_S4x512_S2048x512_1_0_0_1_n_n.contr.Idx) :
    (dot_S2048x4_S4x512_S2048x512_1_0_0_1_n_n.rhsIdx i q 1).val = (i 1).val := by
  unfold DotDims.rhsIdx
  rw [dif_neg (show ¬(1 : Fin S4x512.rank) ∈ dot_S2048x4_S4x512_S2048x512_1_0_0_1_n_n.rhsBatch by decide), dif_pos (show (1 : Fin S4x512.rank) ∈ dot_S2048x4_S4x512_S2048x512_1_0_0_1_n_n.rhsNonContracting by decide)]
  rfl

/-! ## The two products at an entry -/

/-- The first product, onto a zero accumulator: row `p` of the left operand against column `q` of the right, over the 128 features. -/
theorem matmul_zw_apply (a : FVec Ideal S2048x128 .bf16) (b : FVec Ideal S128x4 .bf16) (p : Fin 2048) (q : Fin 4) :
    matmul dot_S2048x128_S128x4_S2048x4_1_0_0_1_n_n none a b (constant S2048x4 .f32 0x00000000#32) (ix2 p q)
      = ∑ k : Fin 128, a (ix2 p k) * b (ix2 k q) := by
  refine (Ideal.matmul_constant_zero_apply _ none a b (ix2 p q)).trans ?_
  rw [← Equiv.sum_comp (ValueIdx.contrEquiv1 dot_S2048x128_S128x4_S2048x4_1_0_0_1_n_n 128 rfl rfl).symm]
  refine Finset.sum_congr rfl fun k _ => ?_
  have hk := ValueIdx.contrEquiv1_symm_val dot_S2048x128_S128x4_S2048x4_1_0_0_1_n_n 128 rfl rfl k
  have el : dot_S2048x128_S128x4_S2048x4_1_0_0_1_n_n.lhsIdx (ix2 p q) ((ValueIdx.contrEquiv1 dot_S2048x128_S128x4_S2048x4_1_0_0_1_n_n 128 rfl rfl).symm k) = ix2 p k := funext fun a => Fin.ext (by
    match a with
    | ⟨0, _⟩ => exact lhs_zw_0 _ _
    | ⟨1, _⟩ => exact (lhs_zw_1 _ _).trans hk)
  have er : dot_S2048x128_S128x4_S2048x4_1_0_0_1_n_n.rhsIdx (ix2 p q) ((ValueIdx.contrEquiv1 dot_S2048x128_S128x4_S2048x4_1_0_0_1_n_n 128 rfl rfl).symm k) = ix2 k q := funext fun a => Fin.ext (by
    match a with
    | ⟨0, _⟩ => exact (rhs_zw_0 _ _).trans hk
    | ⟨1, _⟩ => exact rhs_zw_1 _ _)
  rw [el, er]

/-- The second product, onto a zero accumulator: the four numbers of row `p` against column `q` of the spreading matrix. -/
theorem matmul_spread_apply (a : FVec Ideal S2048x4 .bf16) (b : FVec Ideal S4x512 .bf16) (p : Fin 2048) (q : Fin 512) :
    matmul dot_S2048x4_S4x512_S2048x512_1_0_0_1_n_n none a b (constant S2048x512 .f32 0x00000000#32) (ix2 p q)
      = ∑ k : Fin 4, a (ix2 p k) * b (ix2 k q) := by
  refine (Ideal.matmul_constant_zero_apply _ none a b (ix2 p q)).trans ?_
  rw [← Equiv.sum_comp (ValueIdx.contrEquiv1 dot_S2048x4_S4x512_S2048x512_1_0_0_1_n_n 4 rfl rfl).symm]
  refine Finset.sum_congr rfl fun k _ => ?_
  have hk := ValueIdx.contrEquiv1_symm_val dot_S2048x4_S4x512_S2048x512_1_0_0_1_n_n 4 rfl rfl k
  have el : dot_S2048x4_S4x512_S2048x512_1_0_0_1_n_n.lhsIdx (ix2 p q) ((ValueIdx.contrEquiv1 dot_S2048x4_S4x512_S2048x512_1_0_0_1_n_n 4 rfl rfl).symm k) = ix2 p k := funext fun a => Fin.ext (by
    match a with
    | ⟨0, _⟩ => exact lhs_spread_0 _ _
    | ⟨1, _⟩ => exact (lhs_spread_1 _ _).trans hk)
  have er : dot_S2048x4_S4x512_S2048x512_1_0_0_1_n_n.rhsIdx (ix2 p q) ((ValueIdx.contrEquiv1 dot_S2048x4_S4x512_S2048x512_1_0_0_1_n_n 4 rfl rfl).symm k) = ix2 k q := funext fun a => Fin.ext (by
    match a with
    | ⟨0, _⟩ => exact (rhs_spread_0 _ _).trans hk
    | ⟨1, _⟩ => exact rhs_spread_1 _ _)
  rw [el, er]

/-! ## The row operand broadcast down the block -/

/-- The `[1, 512]` row broadcast to `[2048, 512]` reads its lane `q` on every row. -/
theorem row_bcast_apply (v : FVec Ideal S1x512 .f32) (p : Fin 2048) (q : Fin 512) :
    broadcastTo S2048x512 v broadcasts_S1x512_S2048x512 (ix2 p q) = v (ix2 (0 : Fin 1) q) :=
  broadcastTo_apply v broadcasts_S1x512_S2048x512 (ix2 p q) (ix2 (0 : Fin 1) q) (fun a => match a with
    | ⟨0, _⟩ => by show (0 : Nat) = if (1 : Nat) = 1 then 0 else p.val; rw [if_pos rfl]
    | ⟨1, _⟩ => by show q.val = if (512 : Nat) = 1 then 0 else q.val; rw [if_neg (by decide)])

/-! ## The stored value at an entry -/

/-- The step's stored block at row `p`, lane `q`, from the four loaded operands. -/
theorem pay_apply (x0 : Vec Ideal S2048x128 .f32) (x1 : Vec Ideal S128x4 .f32) (x2 : Vec Ideal S4x512 .f32) (x3 : Vec Ideal S1x512 .f32)
    (p : Fin 2048) (q : Fin 512) :
    k0_pay1 (F := Ideal) x0 x1 x2 x3 (ix2 p q)
      = max ((∑ k : Fin 4, (∑ d : Fin 128, x0 (ix2 p d) * x1 (ix2 d k)) * x2 (ix2 k q)) + x3 (ix2 (0 : Fin 1) q)) 0 := by
  unfold k0_pay1
  rw [shapeCast_self, shapeCast_self, shapeCast_self]
  show max ((matmul dot_S2048x4_S4x512_S2048x512_1_0_0_1_n_n none _ _ (constant (F := Ideal) S2048x512 .f32 0x00000000#32) (ix2 p q))
      + (broadcastTo S2048x512 x3 broadcasts_S1x512_S2048x512 (ix2 p q))) (Ideal.ofBits .f32 0x00000000#32) = _
  rw [Ideal.ofBits_zero_f32, matmul_spread_apply, row_bcast_apply]
  refine congrArg (fun s => max (s + x3 (ix2 (0 : Fin 1) q)) 0) (Finset.sum_congr rfl fun k _ => ?_)
  show (matmul dot_S2048x128_S128x4_S2048x4_1_0_0_1_n_n none (truncf .bf16 x0 bitsLt_bf16_f32) (truncf .bf16 x1 bitsLt_bf16_f32)
      (constant (F := Ideal) S2048x4 .f32 0x00000000#32) (ix2 p k)) * x2 (ix2 k q) = _
  rw [matmul_zw_apply]
  rfl

/-- The same at any index of the block, its coordinates named. -/
theorem pay_at (x0 : Vec Ideal S2048x128 .f32) (x1 : Vec Ideal S128x4 .f32) (x2 : Vec Ideal S4x512 .f32) (x3 : Vec Ideal S1x512 .f32)
    (j : S2048x512.Idx) :
    k0_pay1 (F := Ideal) x0 x1 x2 x3 j
      = max ((∑ k : Fin 4, (∑ d : Fin 128, x0 (ix2 (⟨(j 0).val, (j 0).isLt⟩ : Fin 2048) d) * x1 (ix2 d k))
          * x2 (ix2 k (⟨(j 1).val, (j 1).isLt⟩ : Fin 512))) + x3 (ix2 (0 : Fin 1) (⟨(j 1).val, (j 1).isLt⟩ : Fin 512))) 0 := by
  have e : j = ix2 (⟨(j 0).val, (j 0).isLt⟩ : Fin 2048) (⟨(j 1).val, (j 1).isLt⟩ : Fin 512) :=
    funext fun a => by match a with | ⟨0, _⟩ => rfl | ⟨1, _⟩ => rfl
  exact (congrArg (k0_pay1 (F := Ideal) x0 x1 x2 x3) e).trans (pay_apply x0 x1 x2 x3 _ _)

/-! ## The whole output array as one function of the four arrays the region reads -/

/-- Over the whole `[8192, 512]` array: the same formula with `z`'s row taken at the array's own row index. Each
    step's stored block is a block of rows of this function. -/
def stepOut (A0 : S8192x128.Idx → EReal) (A1 : S128x4.Idx → EReal) (A2 : S4x512.Idx → EReal) (A3 : S1x512.Idx → EReal) :
    S8192x512.Idx → EReal := fun i =>
  max ((∑ k : Fin 4, (∑ d : Fin 128, A0 (ix2 (⟨(i 0).val, (i 0).isLt⟩ : Fin 8192) d) * A1 (ix2 d k))
      * A2 (ix2 k (⟨(i 1).val, (i 1).isLt⟩ : Fin 512))) + A3 (ix2 (0 : Fin 1) (⟨(i 1).val, (i 1).isLt⟩ : Fin 512))) 0

/-- A step's stored entry `j` is the whole-array function at `i`, once each loaded operand is known to read the
    corresponding array where `i` says. -/
theorem step_block (A0 : S8192x128.Idx → EReal) (A1 : S128x4.Idx → EReal) (A2 : S4x512.Idx → EReal) (A3 : S1x512.Idx → EReal)
    (x0 : Vec Ideal S2048x128 .f32) (x1 : Vec Ideal S128x4 .f32) (x2 : Vec Ideal S4x512 .f32) (x3 : Vec Ideal S1x512 .f32)
    (j : S2048x512.Idx) (i : S8192x512.Idx)
    (h0 : ∀ d : Fin 128, x0 (ix2 (⟨(j 0).val, (j 0).isLt⟩ : Fin 2048) d) = A0 (ix2 (⟨(i 0).val, (i 0).isLt⟩ : Fin 8192) d))
    (h1 : ∀ (d : Fin 128) (k : Fin 4), x1 (ix2 d k) = A1 (ix2 d k))
    (h2 : ∀ k : Fin 4, x2 (ix2 k (⟨(j 1).val, (j 1).isLt⟩ : Fin 512)) = A2 (ix2 k (⟨(i 1).val, (i 1).isLt⟩ : Fin 512)))
    (h3 : x3 (ix2 (0 : Fin 1) (⟨(j 1).val, (j 1).isLt⟩ : Fin 512)) = A3 (ix2 (0 : Fin 1) (⟨(i 1).val, (i 1).isLt⟩ : Fin 512))) :
    k0_pay1 (F := Ideal) x0 x1 x2 x3 j = stepOut A0 A1 A2 A3 i := by
  rw [pay_at]
  unfold stepOut
  simp only [h0, h1, h2, h3]

end Cert.KernelIdeal.Body

end
-- ==== Proof.KernelHost.lean ====
/-
  The three small operands the kernel's region is launched with, as functions of the program's arguments.

  Before the region the host computes, from `x : [128, 128]`, `W : [256, 4]` and `b : [4]`:
  * `Wz`, the upper half of `W` (rows 0 to 127);
  * the spreading matrix `E : [4, 512]`: the 4×4 identity (an equality test of two iotas, converted to a float),
    repeated 128 times along the lanes, so that `E[k, 4·m + h] = 1` if `k = h` and `0` otherwise;
  * the row `xwb : [1, 512]`: `xwb[0, 4·m + h] = Σ_d x[d,m]·W[128+d,h] + b[h]`, the `[128, 4]` array of these numbers
    laid out row-major.
  A lane is written `4·m + h` throughout (`lane m h`), which is how the result's last two axes are later read off it.
-/
import proofs.«110605_j12541304504449_1_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

open scoped BigOperators

namespace Cert.KernelIdeal.Host

open Cert.KernelIdeal Cert.KernelIdeal.Gen
open Idealize.ShloMosaic Idealize.ShloMosaic.TcCoe Idealize.SL.Sem Idealize.ShloMosaic.ValueIdx Idealize.ShloMosaic.StableHlo

/-- Lane `4·m + h` of a 512-lane row. -/
abbrev lane (mm : Fin 128) (h : Fin 4) : Fin 512 := ⟨mm.val * 4 + h.val, by have := mm.isLt; have := h.isLt; omega⟩

/-! ## The spreading matrix -/

/-- The equality test of the row and column iotas of a 4×4 array, as a number: one on the diagonal, zero off it. -/
theorem eye_bit : ∀ k h : Fin 4,
    (IntOp.cmpi .eq (IntOp.addi (BitVec.ofNat 32 k.val) 0#32) (BitVec.ofNat 32 h.val)).toNat = if k.val = h.val then 1 else 0 := by
  decide

/-- The spreading matrix at row `k`, lane `4·m + h`: the identity's entry `(k, h)`, whatever `m`. -/
theorem spread_apply (k : Fin 4) (mm : Fin 128) (h : Fin 4) :
    shapeCast S4x512 (broadcastInDim S1x4x128x4 ![0, 1, 2, 3] bcast_S1x4x1x4_S1x4x128x4_0_1_2_3
        (shapeCast S1x4x1x4 (uitofp (F := Ideal) .f32 (cmpi .eq (addi (iotaInDim S4x4 32 0)
          (broadcastInDim S4x4 ![] bcast_S_S4x4 (constantI S_ 32 0#32))) (iotaInDim S4x4 32 1))) shapeCasts_S4x4_S1x4x1x4))
      shapeCasts_S1x4x128x4_S4x512 (ix2 k (lane mm h))
      = if k.val = h.val then (1 : EReal) else 0 := by
  rw [shapeCast_apply _ shapeCasts_S1x4x128x4_S4x512 (ix2 k (lane mm h)) (ix4 (0 : Fin 1) k mm h) (by
    rw [Shape.rowMajor_val_four, Shape.rowMajor_val_two]
    show (((0 * 4 + k.val) * 128 + mm.val) * 4 + h.val) = k.val * 512 + (mm.val * 4 + h.val)
    omega)]
  rw [broadcastInDim_apply _ bcast_S1x4x1x4_S1x4x128x4_0_1_2_3 _ (ix4 (0 : Fin 1) k mm h) (ix4 (0 : Fin 1) k (0 : Fin 1) h) (fun a => match a with
    | ⟨0, _⟩ => by show (0 : Nat) = if (1 : Nat) = 1 then 0 else 0; rw [if_pos rfl]
    | ⟨1, _⟩ => by show k.val = if (4 : Nat) = 1 then 0 else k.val; rw [if_neg (by decide)]
    | ⟨2, _⟩ => by show (0 : Nat) = if (1 : Nat) = 1 then 0 else mm.val; rw [if_pos rfl]
    | ⟨3, _⟩ => by show h.val = if (4 : Nat) = 1 then 0 else h.val; rw [if_neg (by decide)])]
  rw [shapeCast_apply _ shapeCasts_S4x4_S1x4x1x4 (ix4 (0 : Fin 1) k (0 : Fin 1) h) (ix2 k h) (by
    rw [Shape.rowMajor_val_four, Shape.rowMajor_val_two]
    show k.val * 4 + h.val = (((0 * 4 + k.val) * 1 + 0) * 4 + h.val)
    omega)]
  show (((IntOp.cmpi .eq (IntOp.addi (BitVec.ofNat 32 k.val) 0#32) (BitVec.ofNat 32 h.val)).toNat : ℝ) : EReal) = _
  rw [eye_bit k h]
  by_cases e : k.val = h.val
  · rw [if_pos e, if_pos e]; simp
  · rw [if_neg e, if_neg e]; simp

/-! ## The row `xwb` -/

theorem lhs_xw_0 (i : S128x4.Idx) (q : dot_S128x128_S128x4_S128x4_0_0_1_1_n_n.contr.Idx) :
    (dot_S128x128_S128x4_S128x4_0_0_1_1_n_n.lhsIdx i q 0).val = (q ⟨0, by decide⟩).val :=
  dot_S128x128_S128x4_S128x4_0_0_1_1_n_n.lhsIdx_val_of_single rfl i q
theorem lhs_xw_1 (i : S128x4.Idx) (q : dot_S128x128_S128x4_S128x4_0_0_1_1_n_n.contr.Idx) :
    (dot_S128x128_S128x4_S128x4_0_0_1_1_n_n.lhsIdx i q 1).val = (i 0).val := by
  unfold DotDims.lhsIdx
  rw [dif_neg (show ¬(1 : Fin S128x128.rank) ∈ dot_S128x128_S128x4_S128x4_0_0_1_1_n_n.lhsBatch by decide), dif_pos (show (1 : Fin S128x128.rank) ∈ dot_S128x128_S128x4_S128x4_0_0_1_1_n_n.lhsNonContracting by decide)]
  rfl
theorem rhs_xw_0 (i : S128x4.Idx) (q : dot_S128x128_S128x4_S128x4_0_0_1_1_n_n.contr.Idx) :
    (dot_S128x128_S128x4_S128x4_0_0_1_1_n_n.rhsIdx i q 0).val = (q ⟨0, by decide⟩).val :=
  dot_S128x128_S128x4_S128x4_0_0_1_1_n_n.rhsIdx_val_of_single rfl i q
theorem rhs_xw_1 (i : S128x4.Idx) (q : dot_S128x128_S128x4_S128x4_0_0_1_1_n_n.contr.Idx) :
    (dot_S128x128_S128x4_S128x4_0_0_1_1_n_n.rhsIdx i q 1).val = (i 1).val := by
  unfold DotDims.rhsIdx
  rw [dif_neg (show ¬(1 : Fin S128x4.rank) ∈ dot_S128x128_S128x4_S128x4_0_0_1_1_n_n.rhsBatch by decide), dif_pos (show (1 : Fin S128x4.rank) ∈ dot_S128x128_S128x4_S128x4_0_0_1_1_n_n.rhsNonContracting by decide)]
  rfl

/-- The host's product of `x` (contracted over its first axis) with the lower half of `W`, at `(m, h)`. -/
theorem xw_apply (x : FVec Ideal S128x128 .f32) (W : FVec Ideal S256x4 .f32) (mm : Fin 128) (h : Fin 4) :
    Host.dotGeneral (F := Ideal) dot_S128x128_S128x4_S128x4_0_0_1_1_n_n none x (extractStridedSlice S128x4 ![128, 0] W slices_S256x4_S128x4_128_0) (ix2 mm h)
      = ∑ d : Fin 128, x (ix2 d mm) * W (ix2 (⟨128 + d.val, by have := d.isLt; omega⟩ : Fin 256) h) := by
  simp only [Host.dotGeneral]
  rw [Ideal.dotGeneral_apply, ← Equiv.sum_comp (ValueIdx.contrEquiv1 dot_S128x128_S128x4_S128x4_0_0_1_1_n_n 128 rfl rfl).symm]
  refine Finset.sum_congr rfl fun d _ => ?_
  have hd := ValueIdx.contrEquiv1_symm_val dot_S128x128_S128x4_S128x4_0_0_1_1_n_n 128 rfl rfl d
  have el : dot_S128x128_S128x4_S128x4_0_0_1_1_n_n.lhsIdx (ix2 mm h) ((ValueIdx.contrEquiv1 dot_S128x128_S128x4_S128x4_0_0_1_1_n_n 128 rfl rfl).symm d) = ix2 d mm := funext fun a => Fin.ext (by
    match a with
    | ⟨0, _⟩ => exact (lhs_xw_0 _ _).trans hd
    | ⟨1, _⟩ => exact lhs_xw_1 _ _)
  have er : dot_S128x128_S128x4_S128x4_0_0_1_1_n_n.rhsIdx (ix2 mm h) ((ValueIdx.contrEquiv1 dot_S128x128_S128x4_S128x4_0_0_1_1_n_n 128 rfl rfl).symm d) = ix2 d h := funext fun a => Fin.ext (by
    match a with
    | ⟨0, _⟩ => exact (rhs_xw_0 _ _).trans hd
    | ⟨1, _⟩ => exact rhs_xw_1 _ _)
  rw [el, er]
  refine congrArg (x (ix2 d mm) * ·) ?_
  exact extractStridedSlice_apply ![128, 0] W slices_S256x4_S128x4_128_0 (ix2 d h) (ix2 (⟨128 + d.val, by have := d.isLt; omega⟩ : Fin 256) h) (fun a => match a with
    | ⟨0, _⟩ => by show 128 + d.val = 128 + d.val; rfl
    | ⟨1, _⟩ => by show h.val = 0 + h.val; omega)

/-- The bias broadcast to `[128, 4]` reads `b[h]` on every row. -/
theorem bias_apply (b : FVec Ideal S4 .f32) (mm : Fin 128) (h : Fin 4) :
    broadcastInDim S128x4 ![0, 1] bcast_S1x4_S128x4_0_1 (broadcastInDim S1x4 ![1] bcast_S4_S1x4_1 b) (ix2 mm h) = b (ix1 h) := by
  rw [broadcastInDim_apply _ bcast_S1x4_S128x4_0_1 _ (ix2 mm h) (ix2 (0 : Fin 1) h) (fun a => match a with
    | ⟨0, _⟩ => by show (0 : Nat) = if (1 : Nat) = 1 then 0 else mm.val; rw [if_pos rfl]
    | ⟨1, _⟩ => by show h.val = if (4 : Nat) = 1 then 0 else h.val; rw [if_neg (by decide)])]
  exact broadcastInDim_apply _ bcast_S4_S1x4_1 b (ix2 (0 : Fin 1) h) (ix1 h) (fun a => match a with
    | ⟨0, _⟩ => by show h.val = if (4 : Nat) = 1 then 0 else h.val; rw [if_neg (by decide)])

/-- The row `xwb` at lane `4·m + h`. -/
theorem xwb_apply (x : FVec Ideal S128x128 .f32) (W : FVec Ideal S256x4 .f32) (b : FVec Ideal S4 .f32) (mm : Fin 128) (h : Fin 4) :
    shapeCast S1x512 (addf (Host.dotGeneral (F := Ideal) dot_S128x128_S128x4_S128x4_0_0_1_1_n_n none x (extractStridedSlice S128x4 ![128, 0] W slices_S256x4_S128x4_128_0))
        (broadcastInDim S128x4 ![0, 1] bcast_S1x4_S128x4_0_1 (broadcastInDim S1x4 ![1] bcast_S4_S1x4_1 b)))
      shapeCasts_S128x4_S1x512 (ix2 (0 : Fin 1) (lane mm h))
      = (∑ d : Fin 128, x (ix2 d mm) * W (ix2 (⟨128 + d.val, by have := d.isLt; omega⟩ : Fin 256) h)) + b (ix1 h) := by
  rw [shapeCast_apply _ shapeCasts_S128x4_S1x512 (ix2 (0 : Fin 1) (lane mm h)) (ix2 mm h) (by
    rw [Shape.rowMajor_val_two, Shape.rowMajor_val_two]
    show mm.val * 4 + h.val = 0 * 512 + (mm.val * 4 + h.val)
    omega)]
  show _ + _ = _
  rw [xw_apply, bias_apply]

/-! ## The arrays as the region finds them -/

variable (m : (ℓ : Loc nD τ sig) → Buf (Elt Ideal) ℓ)

/-- The program's arguments on core `c`, at their literal types. -/
abbrev zArg (c : Dev nD) : FVec Ideal S8192x128 .f32 := m ((c : Thread nD τ).loc main_arg0)
abbrev xArg (c : Dev nD) : FVec Ideal S128x128 .f32 := m ((c : Thread nD τ).loc main_arg1)
abbrev wArg (c : Dev nD) : FVec Ideal S256x4 .f32 := m ((c : Thread nD τ).loc main_arg2)
abbrev bArg (c : Dev nD) : FVec Ideal S4 .f32 := m ((c : Thread nD τ).loc main_arg3)

/-- `Wz` is the upper half of `W`. -/
theorem V_wz (c : Dev nD) : (V m c main_v0 : S128x4.Idx → EReal)
    = extractStridedSlice S128x4 ![0, 0] (wArg m c) slices_S256x4_S128x4_0_0 := by
  show StableHlo.after hostOps0 (fun b => m (c, b)) (Proc.devRef .tc main_v0) = _
  after_results <;> rfl

theorem V_wz_apply (c : Dev nD) (d : Fin 128) (k : Fin 4) :
    V m c main_v0 (ix2 d k) = wArg m c (ix2 (⟨d.val, by have := d.isLt; omega⟩ : Fin 256) k) :=
  (congrFun (V_wz m c) (ix2 d k)).trans
    (extractStridedSlice_apply ![0, 0] _ slices_S256x4_S128x4_0_0 (ix2 d k) (ix2 (⟨d.val, by have := d.isLt; omega⟩ : Fin 256) k) (fun a => match a with
      | ⟨0, _⟩ => by show d.val = 0 + d.val; omega
      | ⟨1, _⟩ => by show k.val = 0 + k.val; omega))

/-- The spreading matrix, as the host's operations build it. -/
theorem V_spread (c : Dev nD) : (V m c main_v15 : S4x512.Idx → EReal)
    = shapeCast S4x512 (broadcastInDim S1x4x128x4 ![0, 1, 2, 3] bcast_S1x4x1x4_S1x4x128x4_0_1_2_3
        (shapeCast S1x4x1x4 (uitofp (F := Ideal) .f32 (cmpi .eq (addi (iotaInDim S4x4 32 0)
          (broadcastInDim S4x4 ![] bcast_S_S4x4 (constantI S_ 32 0#32))) (iotaInDim S4x4 32 1))) shapeCasts_S4x4_S1x4x1x4))
      shapeCasts_S1x4x128x4_S4x512 := by
  show StableHlo.after hostOps0 (fun b => m (c, b)) (Proc.devRef .tc main_v15) = _
  after_results <;> rfl

theorem V_spread_apply (c : Dev nD) (k : Fin 4) (mm : Fin 128) (h : Fin 4) :
    V m c main_v15 (ix2 k (lane mm h)) = if k.val = h.val then (1 : EReal) else 0 :=
  (congrFun (V_spread m c) (ix2 k (lane mm h))).trans (spread_apply k mm h)

/-- The row `xwb`, as the host's operations build it. -/
theorem V_xwb (c : Dev nD) : (V m c main_v6 : S1x512.Idx → EReal)
    = shapeCast S1x512 (addf (Host.dotGeneral (F := Ideal) dot_S128x128_S128x4_S128x4_0_0_1_1_n_n none (xArg m c)
          (extractStridedSlice S128x4 ![128, 0] (wArg m c) slices_S256x4_S128x4_128_0))
        (broadcastInDim S128x4 ![0, 1] bcast_S1x4_S128x4_0_1 (broadcastInDim S1x4 ![1] bcast_S4_S1x4_1 (bArg m c))))
      shapeCasts_S128x4_S1x512 := by
  show StableHlo.after hostOps0 (fun b => m (c, b)) (Proc.devRef .tc main_v6) = _
  after_results <;> rfl

theorem V_xwb_apply (c : Dev nD) (mm : Fin 128) (h : Fin 4) :
    V m c main_v6 (ix2 (0 : Fin 1) (lane mm h))
      = (∑ d : Fin 128, xArg m c (ix2 d mm) * wArg m c (ix2 (⟨128 + d.val, by have := d.isLt; omega⟩ : Fin 256) h))
          + bArg m c (ix1 h) :=
  (congrFun (V_xwb m c) (ix2 (0 : Fin 1) (lane mm h))).trans (xwb_apply _ _ _ mm h)

end Cert.KernelIdeal.Host

end
-- ==== Proof.KernelValue.lean ====
/-
  The kernel's result array, as a function of the program's arguments.

  The region runs four steps; step `t` stores rows `2048·t … 2048·t + 2047` of the `[8192, 512]` output, reading the
  matching rows of `z` and the three small operands whole. Each stored block is a block of rows of ONE function of the
  four arrays the region reads (`Body.stepOut`), the four blocks tile the output, so the output array ends as that
  function. After the region the host reshapes `[8192, 512]` to `[8192, 128, 4]`: entry `(n, m, h)` is the array's entry
  `(n, 4·m + h)`. There the spreading matrix picks the `h`-th of the four numbers `Σ_d z[n,d]·W[d,·]` and the row operand
  is `Σ_d x[d,m]·W[128+d,h] + b[h]`; regrouping the sum gives the specification.
-/
import proofs.«110605_j12541304504449_1_alg».proof.Proof.Gen.KernelIdeal.Frame
import proofs.«110605_j12541304504449_1_alg».proof.Proof.KernelBody
import proofs.«110605_j12541304504449_1_alg».proof.Proof.KernelHost
import proofs.«110605_j12541304504449_1_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KernelValue

open Cert.KernelIdeal Cert.KernelIdeal.Gen Cert.KernelIdeal.Body Cert.KernelIdeal.Host
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Which block each window is on at step `t` -/

/-- The `z` window moves with the output window along the rows; every other block index is zero; the output's row-block
    index stays below four. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 3 :=
  (by decide +kernel : ∀ t : Fin grid0.N, _)

/-- Every one of the four row blocks of the output is some step's. -/
theorem idx_onto : ∀ q0 : Fin 4, ∃ t : Fin cfg0.N, win0_4.index t = ![q0.val, 0] :=
  (by decide +kernel : ∀ q0 : Fin 4, ∃ t : Fin grid0.N, win0_4.index t = ![q0.val, 0])

/-! ## The loaded blocks are the arrays read where the output's block says -/

/-- Step `t`'s block of `z`: row `y 0` of the block is row `2048·(output row block) + y 0` of the array. -/
theorem z_blk (c : Dev nD) (t : Fin cfg0.N) (y : S2048x128.Idx) (i : S8192x128.Idx)
    (h0 : (i 0).val = win0_4.index t (0 : Fin 2) * 2048 + (y 0).val) (h1 : (i 1).val = (y 1).val) :
    iblk m c 0 t y = V m c main_arg0 i := by
  obtain ⟨e0, e1, -⟩ := idx_facts t
  show V m c main_arg0 (((cfg0.win 0).blk t).view.emb y) = V m c main_arg0 i
  have h : ((cfg0.win 0).blk t).view.emb y = i := by
    funext a; apply Fin.ext
    match a with
    | ⟨0, _⟩ => show win0_0.index t (0 : Fin 2) * 2048 + 1 * (y 0).val = (i 0).val; omega
    | ⟨1, _⟩ => show win0_0.index t (1 : Fin 2) * 128 + 1 * (y 1).val = (i 1).val; omega
  rw [h]

/-- The `Wz` window is the whole array at every step. -/
theorem wz_blk (c : Dev nD) (t : Fin cfg0.N) (y : S128x4.Idx) : iblk m c 1 t y = V m c main_v0 y := by
  obtain ⟨-, -, e2, e3, -⟩ := idx_facts t
  show V m c main_v0 (((cfg0.win 1).blk t).view.emb y) = V m c main_v0 y
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 4 + 1 * (y 1).val = (y 1).val; omega
  rw [h]

/-- The spreading matrix's window is the whole array at every step. -/
theorem spread_blk (c : Dev nD) (t : Fin cfg0.N) (y : S4x512.Idx) : iblk m c 2 t y = V m c main_v15 y := by
  obtain ⟨-, -, -, -, e4, e5, -⟩ := idx_facts t
  show V m c main_v15 (((cfg0.win 2).blk t).view.emb y) = V m c main_v15 y
  have h : ((cfg0.win 2).blk t).view.emb y = y := by
    funext a; apply Fin.ext
    match a with
    | ⟨0, _⟩ => show win0_2.index t (0 : Fin 2) * 4 + 1 * (y 0).val = (y 0).val; omega
    | ⟨1, _⟩ => show win0_2.index t (1 : Fin 2) * 512 + 1 * (y 1).val = (y 1).val; omega
  rw [h]

/-- The row operand's window is the whole array at every step. -/
theorem xwb_blk (c : Dev nD) (t : Fin cfg0.N) (y : S1x512.Idx) : iblk m c 3 t y = V m c main_v6 y := by
  obtain ⟨-, -, -, -, -, -, e6, e7, -⟩ := idx_facts t
  show V m c main_v6 (((cfg0.win 3).blk t).view.emb y) = V m c main_v6 y
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 512 + 1 * (y 1).val = (y 1).val; omega
  rw [h]

/-! ## What a step writes back -/

/-- Step `t` writes back block `t` of the whole-array function of the arrays the region reads. -/
theorem flushed_eq (c : Dev nD) (t : Fin cfg0.N) :
    (dats m 0 c).flushed 4 t
      = ((cfg0.win 4).blk t).view.read (Elt Ideal) (stepOut (V m c main_arg0) (V m c main_v0) (V m c main_v15) (V m c main_v6)) := by
  show (cfg0.win 4).cut (grid0.coords t) ((dats m 0 c).after 4 t) = _
  rw [after0_4]
  unfold out0_4
  rw [View.canon_unit_zero hz]
  simp only [View.ld_unit_zero (S := S2048x128) hz, View.ld_unit_zero (S := S128x4) hz, View.ld_unit_zero (S := S4x512) hz,
    View.ld_unit_zero (S := S1x512) hz]
  obtain ⟨-, -, -, -, -, -, -, -, e8, -⟩ := idx_facts t
  funext j
  show k0_pay1 (F := Ideal) (iblk m c 0 t) (iblk m c 1 t) (iblk m c 2 t) (iblk m c 3 t) j
    = stepOut (V m c main_arg0) (V m c main_v0) (V m c main_v15) (V m c main_v6) (((cfg0.win 4).blk t).view.emb j)
  have hj0 : ((((cfg0.win 4).blk t).view.emb j) 0).val = win0_4.index t (0 : Fin 2) * 2048 + (j 0).val := by
    show win0_4.index t (0 : Fin 2) * 2048 + 1 * (j 0).val = _; omega
  have hj1 : ((((cfg0.win 4).blk t).view.emb j) 1).val = (j 1).val := by
    show win0_4.index t (1 : Fin 2) * 512 + 1 * (j 1).val = _; omega
  refine step_block (V m c main_arg0) (V m c main_v0) (V m c main_v15) (V m c main_v6)
    (iblk m c 0 t) (iblk m c 1 t) (iblk m c 2 t) (iblk m c 3 t) j (((cfg0.win 4).blk t).view.emb j) ?_ ?_ ?_ ?_
  · intro d
    exact z_blk m c t _ _ hj0 rfl
  · intro d k
    exact wz_blk m c t _
  · intro k
    refine (spread_blk m c t _).trans (congrArg (V m c main_v15) ?_)
    funext a; apply Fin.ext
    match a with
    | ⟨0, _⟩ => rfl
    | ⟨1, _⟩ => exact hj1.symm
  · refine (xwb_blk m c t _).trans (congrArg (V m c main_v6) ?_)
    funext a; apply Fin.ext
    match a with
    | ⟨0, _⟩ => rfl
    | ⟨1, _⟩ => exact hj1.symm

/-! ## The blocks tile the output -/

/-- An index of the output array is in step `t`'s block iff each coordinate is in the block's range on its axis. -/
theorem mem_blk (t : Fin cfg0.N) (i : S8192x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v16).slice (win0_4.rect t)).set ↔ _
  rw [View.set_slice_whole, Rect.mem_set_unit]
  exact Iff.rfl

/-- Every index is in the block of the step whose row block holds its row. -/
theorem cover (i : S8192x512.Idx) : ∃ t : Fin cfg0.N, (cfg0.win 4).flush t = true ∧ i ∈ ((cfg0.win 4).blk t).view.set := by
  have hi0 : (i 0).val < 8192 := (i 0).isLt
  have hi1 : (i 1).val < 512 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 512 ≤ (i 1).val ∧ (i 1).val < win0_4.index t (1 : Fin 2) * 512 + 512; omega

/-- The output array after the region. -/
theorem final (c : Dev nD) :
    (dats m 0 c).arrAt 4 cfg0.N = stepOut (V m c main_arg0) (V m c main_v0) (V m c main_v15) (V m c main_v6) :=
  (dats m 0 c).arrAt_eq_of_cover 4 _ (fun t _ => flushed_eq m c t) cover

/-! ## The reshape after the region, and the result -/

/-- The program's result buffer is the reshape of the output array. -/
theorem tail_eq (c : Dev nD) :
    (Pipeline.afterTail₀ cfgs (dats m) 0 (V0 m) [hostOps1] c main_v17 : S8192x128x4.Idx → EReal)
      = shapeCast S8192x128x4 (stepOut (V m c main_arg0) (V m c main_v0) (V m c main_v15) (V m c main_v6))
          shapeCasts_S8192x512_S8192x128x4 := by
  have harr : Pipeline.withArrays spec0 c (V0 m c) (fun w => (dats m 0 c).arrAt w cfg0.N) (Proc.devRef .tc main_v16)
      = stepOut (V m c main_arg0) (V m c main_v0) (V m c main_v15) (V m c main_v6) :=
    (Pipeline.withArrays_arr spec0 launch0.win.arr_inj c _ _ 4).trans (final m c)
  unfold Pipeline.afterTail₀
  show StableHlo.after hostOps1 _ (Proc.devRef .tc main_v17) = _
  after_results
  exact congrArg (fun A : S8192x512.Idx → EReal => shapeCast S8192x128x4 A shapeCasts_S8192x512_S8192x128x4) harr

/-- The whole-array function at row `n`, lane `q`. -/
theorem stepOut_apply (A0 : S8192x128.Idx → EReal) (A1 : S128x4.Idx → EReal) (A2 : S4x512.Idx → EReal) (A3 : S1x512.Idx → EReal)
    (n : Fin 8192) (q : Fin 512) :
    stepOut A0 A1 A2 A3 (ix2 n q)
      = max ((∑ k : Fin 4, (∑ d : Fin 128, A0 (ix2 n d) * A1 (ix2 d k)) * A2 (ix2 k q)) + A3 (ix2 (0 : Fin 1) q)) 0 := rfl

/-- THE RESULT: the program's result buffer holds the specification of the four arguments. -/
theorem result_eq (c : Dev nD) :
    (Pipeline.afterTail₀ cfgs (dats m) 0 (V0 m) [hostOps1] c main_v17 : S8192x128x4.Idx → EReal)
      = Cert.GraphAggr.out (zArg m c) (xArg m c) (wArg m c) (bArg m c) := by
  funext i
  obtain ⟨n, mm, h, rfl⟩ : ∃ (n : Fin 8192) (mm : Fin 128) (h : Fin 4), i = ix3 n mm h := ⟨i 0, i 1, i 2, eq_ix3 i⟩
  refine (congrFun (tail_eq m c) (ix3 n mm h)).trans ?_
  rw [shapeCast_apply _ shapeCasts_S8192x512_S8192x128x4 (ix3 n mm h) (ix2 n (lane mm h)) (by
    rw [Shape.rowMajor_val_two, Shape.rowMajor_val_three]
    show n.val * 512 + (mm.val * 4 + h.val) = (n.val * 128 + mm.val) * 4 + h.val
    omega)]
  rw [stepOut_apply]
  simp only [V_wz_apply m c, V_spread_apply m c, V_xwb_apply m c]
  rw [V_main_arg0 m c]
  refine (congrArg (fun s => max (s + ((∑ d : Fin 128, xArg m c (ix2 d mm)
      * wArg m c (ix2 (⟨128 + d.val, by have := d.isLt; omega⟩ : Fin 256) h)) + bArg m c (ix1 h))) 0)
    (Cert.GraphAggr.sum_mul_indicator (fun k => ∑ d : Fin 128, zArg m c (ix2 n d)
      * wArg m c (ix2 (⟨d.val, by have := d.isLt; omega⟩ : Fin 256) k)) h)).trans ?_
  rw [Cert.GraphAggr.add_bias_last]
  rfl

/-! ## The run -/

/-- Every weakly fair execution of the idealized kernel program terminates with the result buffer at the
    specification of the arguments, the arguments unchanged. -/
theorem run : θ_run defs (onTc (τ := τ) (main (F := Ideal))) ⟨m, fun _ => 0, ρ⟩ (fun r => ∀ c : Dev nD,
      r.2.mem ((c.tc : Thread nD τ).loc main_v17) = Cert.GraphAggr.out (zArg m c) (xArg m c) (wArg m c) (bArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v17 (Pipeline.mem_restRefs_of main_v17 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.lean ====
/-
  A graph-aggregation layer: for node features `z : [8192, 128]`, a feature table `x : [128, 128]`, weights
  `W : [256, 4]` and a bias `b : [4]`, the result at `(n, m, h)` is
      max ( Σ_d z[n,d]·W[d,h]  +  Σ_d x[d,m]·W[128+d,h]  +  b[h] , 0 )
  (Proof/Spec.lean).

  The reference computes this literally: two contractions, three broadcasts, two additions, a maximum with zero
  (Proof/RefValue.lean, over its run read one operation at a time).

  The kernel computes it in a lane-dense layout `[8192, 512]`, lane `4·m + h`. The host first prepares the upper half
  `Wz` of `W`, the row `xwb[4·m + h] = Σ_d x[d,m]·W[128+d,h] + b[h]`, and a 0/1 matrix `E : [4, 512]` with
  `E[k, 4·m + h] = [k = h]` (Proof/KernelHost.lean). Each of four grid steps then takes 2048 rows of `z`, forms
  `(z·Wz)·E + xwb` and clamps at zero (Proof/KernelBody.lean); the four stored blocks tile the output, and the host
  reshapes it to `[8192, 128, 4]` (Proof/KernelValue.lean). Over the extended reals the bf16 narrowings are the identity,
  the product with `E` selects the `h`-th of the four numbers `Σ_d z[n,d]·W[d,·]` (`0·a = 0`, `1·a = a` for every
  extended real `a`), and the only remaining difference, whether the bias is added to the `x` part first or last, is
  the associativity of addition. Neither step uses that the inputs are finite, so the precondition is never opened.

  The three frames are the generated ones (the reference's is its run with the result dropped); the idealization
  rewrote no operation, so `preserves` is trivial.
-/
import proofs.«110605_j12541304504449_1_alg».proof.Defs
import proofs.«110605_j12541304504449_1_alg».proof.Proof.Gen.Kernel
import proofs.«110605_j12541304504449_1_alg».proof.Proof.Gen.Kernel.Skeleton
import proofs.«110605_j12541304504449_1_alg».proof.Proof.Gen.Kernel.Launch
import proofs.«110605_j12541304504449_1_alg».proof.Proof.Gen.Kernel.Points
import proofs.«110605_j12541304504449_1_alg».proof.Proof.Gen.Kernel.Frame
import proofs.«110605_j12541304504449_1_alg».proof.Proof.Gen.KernelIdeal
import proofs.«110605_j12541304504449_1_alg».proof.Proof.Gen.KernelIdeal.Skeleton
import proofs.«110605_j12541304504449_1_alg».proof.Proof.Gen.KernelIdeal.Launch
import proofs.«110605_j12541304504449_1_alg».proof.Proof.Gen.KernelIdeal.Points
import proofs.«110605_j12541304504449_1_alg».proof.Proof.Gen.KernelIdeal.Frame
import proofs.«110605_j12541304504449_1_alg».proof.Proof.Gen.ReferenceIdeal
import proofs.«110605_j12541304504449_1_alg».proof.Proof.Gen.ReferenceIdeal.Run
import proofs.«110605_j12541304504449_1_alg».proof.Proof.Gen.ReferenceIdeal.Read
import proofs.«110605_j12541304504449_1_alg».proof.Proof.Gen.Pre_finite_inputs
import proofs.«110605_j12541304504449_1_alg».proof.Proof.Spec
import proofs.«110605_j12541304504449_1_alg».proof.Proof.RefValue
import proofs.«110605_j12541304504449_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result buffer at the specification of the (agreeing) arguments. -/
theorem algebraic : Cert.algebraic_KernelIdeal_ReferenceIdeal := by
  intro m ρ m' ρ' _ hagree
  refine ⟨fun c => Cert.GraphAggr.out (Cert.KernelIdeal.Host.zArg m c) (Cert.KernelIdeal.Host.xArg m c)
      (Cert.KernelIdeal.Host.wArg m c) (Cert.KernelIdeal.Host.bArg m c), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
